-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10x512 .f32) (main_arg8 : FVec F S10 .f32) (main_v33 : IVec S_ 1) : IVec S_ 1 :=
  let main_v34 : FVec F S10x512 .f32 := Host.absf main_arg7
  let main_cst_12 : FVec F S_ .f32 := constant S_ .f32 0x7F800000#32
  let main_v35 : FVec F S10x512 .f32 := broadcastInDim S10x512 ![] bcast_S_S10x512 main_cst_12
  let main_v36 : IVec S10x512 1 := cmpf .olt main_v34 main_v35
  let main_c_13 : IVec S_ 1 := constantI S_ 1 1#1
  let main_v37 : IVec S_ 1 := (fun x v => Host.reduce IntOp.andi x v reducesTo_S10x512_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S10x512 .f32) (main_arg8 : FVec F S10 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S65536x784 .f32) (main_arg1 : FVec F S512x784 .f32) (main_arg2 : FVec F S512 .f32) (main_arg3 : FVec F S512x512 .f32) (main_arg4 : FVec F S512 .f32) (main_arg5 : FVec F S512x512 .f32) (main_arg6 : FVec F S512 .f32) (main_arg7 : FVec F S10x512 .f32) (main_arg8 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S65536x10 : Shape := ⟨2, ![65536, 10]⟩
abbrev S1024x784 : Shape := ⟨2, ![1024, 784]⟩
abbrev S1024x10 : Shape := ⟨2, ![1024, 10]⟩
abbrev S1024x512 : Shape := ⟨2, ![1024, 512]⟩
abbrev S1x512 : Shape := ⟨2, ![1, 512]⟩
abbrev S1x10 : Shape := ⟨2, ![1, 10]⟩

abbrev nBuf : Space → Nat
  | .hbm => 10
  | .vmem => 16
  | .smem => 0
  | _ => 0

abbrev bufTy : (tb : Table) → Fin (tcTables nBuf tb) → BufTy
  | .hbm, ⟨0, _⟩ => ⟨S65536x784, .f32⟩
  | .hbm, ⟨1, _⟩ => ⟨S512x784, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S10x512, .f32⟩
  | .hbm, ⟨8, _⟩ => ⟨S10, .f32⟩
  | .hbm, ⟨9, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S512x784, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S10x512, .f32⟩
  | .local _ .vmem, ⟨9, _⟩ => ⟨S10, .f32⟩
  | .local _ .vmem, ⟨10, _⟩ => ⟨S1024x10, .f32⟩
  | .local _ .vmem, ⟨11, _⟩ => ⟨S1024x10, .f32⟩
  | .local _ .vmem, ⟨12, _⟩ => ⟨S512x784, .bf16⟩
  | .local _ .vmem, ⟨13, _⟩ => ⟨S512x512, .bf16⟩
  | .local _ .vmem, ⟨14, _⟩ => ⟨S512x512, .bf16⟩
  | .local _ .vmem, ⟨15, _⟩ => ⟨S10x512, .bf16⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S512x784_S512x784_0_0 : ∀ a, (![0, 0] : Fin 2 → Nat) a + S512x784.size a ≤ S512x784.size a
  h_S512x784 : 0 < S512x784.numel
  bitsLt_bf16_f32 : FTy.bits .bf16 < FTy.bits .f32
  shapeCasts_S512x784_S512x784 : S512x784.ShapeCasts S512x784
  packedbf16_S512x784_S512x784_0_0 : (Rect.unit (s := S512x784) ![0, 0] S512x784.size inb_S512x784_S512x784_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S10x512_S10x512_0_0 : ∀ a, (![0, 0] : Fin 2 → Nat) a + S10x512.size a ≤ S10x512.size a
  h_S10x512 : 0 < S10x512.numel
  shapeCasts_S10x512_S10x512 : S10x512.ShapeCasts S10x512
  packedbf16_S10x512_S10x512_0_0 : (Rect.unit (s := S10x512) ![0, 0] S10x512.size inb_S10x512_S10x512_0_0).PackedRows (EltTy.packing .bf16)
  inb_S1024x784_S1024x784_0_0 : ∀ a, (![0, 0] : Fin 2 → Nat) a + S1024x784.size a ≤ S1024x784.size a
  h_S1024x784 : 0 < S1024x784.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x784_S512x784_S1024x512_1_1_0_0_n_n_wf : DotDims.WF S1024x784 S512x784 S1024x512 [1] [1] [0] [0] [] []
  dot_S1024x512_S512x512_S1024x512_1_1_0_0_n_n_wf : DotDims.WF S1024x512 S512x512 S1024x512 [1] [1] [0] [0] [] []
  dot_S1024x512_S10x512_S1024x10_1_1_0_0_n_n_wf : DotDims.WF S1024x512 S10x512 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S512x784.size a
  hwx0_1 : ∀ i : grid0.Coords, EltTy.bits .f32 = 32 ∨ (Rect.block (s := S512x784) S512x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x512.size a ≤ S10x512.size a
  hwx0_7 : ∀ i : grid0.Coords, EltTy.bits .f32 = 32 ∨ (Rect.block (s := S10x512) S10x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10.size a ≤ S10.size a
  hwx0_8 : ∀ i : grid0.Coords, EltTy.bits .f32 = 32 ∨ (Rect.block (s := S10) S10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x10.size a ≤ S65536x10.size a
  hwx0_9 : ∀ i : grid0.Coords, EltTy.bits .f32 = 32 ∨ (Rect.block (s := S65536x10) S1024x10.size (cc0_transform_9 i) (hinb0_9 i)).WholeWords (EltTy.packing .f32)

variable [Facts₀]

def dot_S1024x784_S512x784_S1024x512_1_1_0_0_n_n : DotDims S1024x784 S512x784 S1024x512 where
  lhsContracting := [1]
  rhsContracting := [1]
  lhsNonContracting := [0]
  rhsNonContracting := [0]
  lhsBatch := []
  rhsBatch := []
  wf := dot_S1024x784_S512x784_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S10x512_S1024x10_1_1_0_0_n_n : DotDims S1024x512 S10x512 S1024x10 where
  lhsContracting := [1]
  rhsContracting := [1]
  lhsNonContracting := [0]
  rhsNonContracting := [0]
  lhsBatch := []
  rhsBatch := []
  wf := dot_S1024x512_S10x512_S1024x10_1_1_0_0_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1024x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S_ : Shape := ⟨0, ![]⟩
abbrev S784x512 : Shape := ⟨2, ![784, 512]⟩
abbrev S65536x512 : Shape := ⟨2, ![65536, 512]⟩
abbrev S1x512 : Shape := ⟨2, ![1, 512]⟩
abbrev S512x10 : Shape := ⟨2, ![512, 10]⟩
abbrev S65536x10 : Shape := ⟨2, ![65536, 10]⟩
abbrev S1x10 : Shape := ⟨2, ![1, 10]⟩

abbrev nBuf : Space → Nat
  | .hbm => 71
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S512x784, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S10x512, .f32⟩
  | .hbm, ⟨8, _⟩ => ⟨S10, .f32⟩
  | .hbm, ⟨9, _⟩ => ⟨S_, .f32⟩
  | .hbm, ⟨10, _⟩ => ⟨S512x784, .f32⟩
  | .hbm, ⟨11, _⟩ => ⟨S512x784, .i1⟩
  | .hbm, ⟨12, _⟩ => ⟨S_, .f32⟩
  | .hbm, ⟨13, _⟩ => ⟨S_, .f32⟩
  | .hbm, ⟨14, _⟩ => ⟨S512x784, .f32⟩
  | .hbm, ⟨15, _⟩ => ⟨S512x784, .f32⟩
  | .hbm, ⟨16, _⟩ => ⟨S512x784, .f32⟩
  | .hbm, ⟨17, _⟩ => ⟨S512x784, .f32⟩
  | .hbm, ⟨18, _⟩ => ⟨S512x784, .f32⟩
  | .hbm, ⟨19, _⟩ => ⟨S512x784, .f32⟩
  | .hbm, ⟨20, _⟩ => ⟨S784x512, .f32⟩
  | .hbm, ⟨21, _⟩ => ⟨S65536x512, .f32⟩
  | .hbm, ⟨22, _⟩ => ⟨S1x512, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S_, .f32⟩
  | .hbm, ⟨29, _⟩ => ⟨S512x512, .f32⟩
  | .hbm, ⟨30, _⟩ => ⟨S512x512, .i1⟩
  | .hbm, ⟨31, _⟩ => ⟨S_, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S65536x512, .f32⟩
  | .hbm, ⟨41, _⟩ => ⟨S1x512, .f32⟩
  | .hbm, ⟨42, _⟩ => ⟨S65536x512, .f32⟩
  | .hbm, ⟨43, _⟩ => ⟨S65536x512, .f32⟩
  | .hbm, ⟨44, _⟩ => ⟨S_, .f32⟩
  | .hbm, ⟨45, _⟩ => ⟨S65536x512, .f32⟩
  | .hbm, ⟨46, _⟩ => ⟨S65536x512, .f32⟩
  | .hbm, ⟨47, _⟩ => ⟨S_, .f32⟩
  | .hbm, ⟨48, _⟩ => ⟨S512x512, .f32⟩
  | .hbm, ⟨49, _⟩ => ⟨S512x512, .i1⟩
  | .hbm, ⟨50, _⟩ => ⟨S_, .f32⟩
  | .hbm, ⟨51, _⟩ => ⟨S_, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S65536x512, .f32⟩
  | .hbm, ⟨60, _⟩ => ⟨S1x512, .f32⟩
  | .hbm, ⟨61, _⟩ => ⟨S65536x512, .f32⟩
  | .hbm, ⟨62, _⟩ => ⟨S65536x512, .f32⟩
  | .hbm, ⟨63, _⟩ => ⟨S_, .f32⟩
  | .hbm, ⟨64, _⟩ => ⟨S65536x512, .f32⟩
  | .hbm, ⟨65, _⟩ => ⟨S65536x512, .f32⟩
  | .hbm, ⟨66, _⟩ => ⟨S512x10, .f32⟩
  | .hbm, ⟨67, _⟩ => ⟨S65536x10, .f32⟩
  | .hbm, ⟨68, _⟩ => ⟨S1x10, .f32⟩
  | .hbm, ⟨69, _⟩ => ⟨S65536x10, .f32⟩
  | .hbm, ⟨70, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_cst : Ref sig .tc := ⟨.hbm, 44, rfl⟩
abbrev main_call3_v0 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_cst_7 : Ref sig .tc := ⟨.hbm, 51, rfl⟩
abbrev main_call4_v0 : Ref sig .tc := ⟨.hbm, 52, rfl⟩
abbrev main_call4_v1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call5_cst : Ref sig .tc := ⟨.hbm, 63, rfl⟩
abbrev main_call5_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]

class Facts₀ : Prop where
  bcast_S_S512x784 : S_.BroadcastsInDim S512x784 (![] : Fin 0 → Fin S512x784.rank)
  transposes_S512x784_S784x512_1_0 : S512x784.Transposes [1, 0] S784x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S_S512x512 : S_.BroadcastsInDim S512x512 (![] : Fin 0 → Fin S512x512.rank)
  transposes_S512x512_S512x512_1_0 : S512x512.Transposes [1, 0] S512x512
  transposes_S10x512_S512x10_1_0 : S10x512.Transposes [1, 0] S512x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S784x512_S65536x512_1_0_0_1_n_n_wf : DotDims.WF S65536x784 S784x512 S65536x512 [1] [0] [0] [1] [] []
  dot_S65536x512_S512x512_S65536x512_1_0_0_1_n_n_wf : DotDims.WF S65536x512 S512x512 S65536x512 [1] [0] [0] [1] [] []
  dot_S65536x512_S512x10_S65536x10_1_0_0_1_n_n_wf : DotDims.WF S65536x512 S512x10 S65536x10 [1] [0] [0] [1] [] []

variable [Facts₀]

def dot_S65536x784_S784x512_S65536x512_1_0_0_1_n_n : DotDims S65536x784 S784x512 S65536x512 where
  lhsContracting := [1]
  rhsContracting := [0]
  lhsNonContracting := [0]
  rhsNonContracting := [1]
  lhsBatch := []
  rhsBatch := []
  wf := dot_S65536x784_S784x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x10_S65536x10_1_0_0_1_n_n : DotDims S65536x512 S512x10 S65536x10 where
  lhsContracting := [1]
  rhsContracting := [0]
  lhsNonContracting := [0]
  rhsNonContracting := [1]
  lhsBatch := []
  rhsBatch := []
  wf := dot_S65536x512_S512x10_S65536x10_1_0_0_1_n_n_wf

class Facts : Prop extends Facts₀ where

variable [Facts]
-- ==== Proof.Spec.lean ====
/-
  The network both programs compute, as one function of the argument arrays over the extended reals.

  Three hidden layers with sign-binarized weights and a plain last layer:
    h₁[r, j] = max (∑ₖ x[r, k] · β(w₁[j, k]) + b₁[j]) 0
    h₂[r, j] = max (∑ₖ h₁[r, k] · β(w₂[j, k]) + b₂[j]) 0
    h₃[r, j] = max (∑ₖ h₂[r, k] · β(w₃[j, k]) + b₃[j]) 0
    out[r, o] = ∑ₖ h₃[r, k] · w₄[o, k] + b₄[o]
  where β(w) is the word of 1.0 if w ≥ 0 and the word of −1.0 otherwise.

  One program stores β(w) itself; the other spells it w + (β(w) − w). For a real w the two are the same
  extended real whatever β(w) is: ↑r + (b − ↑r) = b for every extended real b. For an infinite w they differ,
  which is why the weights' finiteness is used.
-/
import Idealize.ShloMosaic.PureOps.Ideal
import Idealize.ShloMosaic.Lib.ValueIdx

noncomputable section

namespace Cert.Mlp

open Idealize.ShloMosaic Idealize.ShloMosaic.ValueIdx

/-- The value of the all-zero f32 word: the threshold of the rectifier. -/
def zero : EReal := Ideal.ofBits .f32 0x00000000#32

/-- β: the words of 1.0 and −1.0 selected by `w ≥ 0`, as both programs spell it. -/
def beta (w : EReal) : EReal :=
  Scalar.select (Ideal.cmp .oge w (Ideal.ofBits .f32 0x00000000#32))
    (Ideal.ofBits .f32 0x3F800000#32) (Ideal.ofBits .f32 0xBF800000#32)

/-- One affine layer at an output unit `j`: the row `h` against row `j` of the weights, plus the bias. -/
def lin {K J : ℕ} (h : Fin K → EReal) (w : Fin J → Fin K → EReal) (b : Fin J → EReal) (j : Fin J) : EReal :=
  (∑ k : Fin K, h k * w j k) + b j

/-- An affine layer followed by the rectifier. -/
def hidden {K J : ℕ} (h : Fin K → EReal) (w : Fin J → Fin K → EReal) (b : Fin J → EReal) (j : Fin J) : EReal :=
  max (lin h w b j) zero

/-- The network on one input row: three rectified layers with weights `v₁ v₂ v₃`, then the plain last layer. -/
def net (x : Fin 784 → EReal) (v1 : Fin 512 → Fin 784 → EReal) (b1 : Fin 512 → EReal)
    (v2 : Fin 512 → Fin 512 → EReal) (b2 : Fin 512 → EReal) (v3 : Fin 512 → Fin 512 → EReal) (b3 : Fin 512 → EReal)
    (w4 : Fin 10 → Fin 512 → EReal) (b4 : Fin 10 → EReal) (o : Fin 10) : EReal :=
  lin (hidden (hidden (hidden x v1 b1) v2 b2) v3 b3) w4 b4 o

/-- A weight array binarized entry by entry. -/
def binW {J K : ℕ} (W : (⟨2, ![J, K]⟩ : Shape).Idx → EReal) (j : Fin J) (k : Fin K) : EReal :=
  beta (W (ix2 j k))

/-- The same written as `w + (β(w) − w)`. -/
def steW {J K : ℕ} (W : (⟨2, ![J, K]⟩ : Shape).Idx → EReal) (j : Fin J) (k : Fin K) : EReal :=
  W (ix2 j k) + (beta (W (ix2 j k)) - W (ix2 j k))

/-- A weight array read as a matrix of rows. -/
def matW {J K : ℕ} (W : (⟨2, ![J, K]⟩ : Shape).Idx → EReal) (j : Fin J) (k : Fin K) : EReal := W (ix2 j k)

/-- A bias array read as a vector. -/
def vecB {J : ℕ} (B : (⟨1, ![J]⟩ : Shape).Idx → EReal) (j : Fin J) : EReal := B (ix1 j)

/-- Row `r` of a two-axis array. -/
def rowOf {R K : ℕ} (X : (⟨2, ![R, K]⟩ : Shape).Idx → EReal) (r : Fin R) (k : Fin K) : EReal := X (ix2 r k)

/-- The whole result: entry `[r, o]` is the network on row `r` of `X`, with binarized hidden weights. -/
def G (X : (⟨2, ![65536, 784]⟩ : Shape).Idx → EReal)
    (W1 : (⟨2, ![512, 784]⟩ : Shape).Idx → EReal) (B1 : (⟨1, ![512]⟩ : Shape).Idx → EReal)
    (W2 : (⟨2, ![512, 512]⟩ : Shape).Idx → EReal) (B2 : (⟨1, ![512]⟩ : Shape).Idx → EReal)
    (W3 : (⟨2, ![512, 512]⟩ : Shape).Idx → EReal) (B3 : (⟨1, ![512]⟩ : Shape).Idx → EReal)
    (W4 : (⟨2, ![10, 512]⟩ : Shape).Idx → EReal) (B4 : (⟨1, ![10]⟩ : Shape).Idx → EReal)
    (i : (⟨2, ![65536, 10]⟩ : Shape).Idx) : EReal :=
  net (rowOf X (i 0)) (binW W1) (vecB B1) (binW W2) (vecB B2) (binW W3) (vecB B3) (matW W4) (vecB B4) (i 1)

/-- The same with the hidden weights written `w + (β(w) − w)`. -/
def Gste (X : (⟨2, ![65536, 784]⟩ : Shape).Idx → EReal)
    (W1 : (⟨2, ![512, 784]⟩ : Shape).Idx → EReal) (B1 : (⟨1, ![512]⟩ : Shape).Idx → EReal)
    (W2 : (⟨2, ![512, 512]⟩ : Shape).Idx → EReal) (B2 : (⟨1, ![512]⟩ : Shape).Idx → EReal)
    (W3 : (⟨2, ![512, 512]⟩ : Shape).Idx → EReal) (B3 : (⟨1, ![512]⟩ : Shape).Idx → EReal)
    (W4 : (⟨2, ![10, 512]⟩ : Shape).Idx → EReal) (B4 : (⟨1, ![10]⟩ : Shape).Idx → EReal)
    (i : (⟨2, ![65536, 10]⟩ : Shape).Idx) : EReal :=
  net (rowOf X (i 0)) (steW W1) (vecB B1) (steW W2) (vecB B2) (steW W3) (vecB B3) (matW W4) (vecB B4) (i 1)

/-- Adding a real and then its difference from `b` gives `b`, for every extended real `b`. -/
theorem coe_add_sub_coe (r : ℝ) (b : EReal) : (r : EReal) + (b - (r : EReal)) = b := by
  induction b using EReal.rec with
  | bot => simp
  | coe y => norm_cast; ring
  | top => simp

/-- For a weight array of reals the two spellings agree. -/
theorem steW_eq_binW {J K : ℕ} (W : (⟨2, ![J, K]⟩ : Shape).Idx → EReal) (hW : ∀ i, ∃ r : ℝ, W i = (r : EReal)) :
    steW W = binW W := by
  funext j k
  obtain ⟨r, hr⟩ := hW (ix2 j k)
  unfold steW binW
  rw [hr]
  exact coe_add_sub_coe r _

/-- With real hidden weights the two whole results agree. -/
theorem Gste_eq_G (X : (⟨2, ![65536, 784]⟩ : Shape).Idx → EReal)
    (W1 : (⟨2, ![512, 784]⟩ : Shape).Idx → EReal) (B1 : (⟨1, ![512]⟩ : Shape).Idx → EReal)
    (W2 : (⟨2, ![512, 512]⟩ : Shape).Idx → EReal) (B2 : (⟨1, ![512]⟩ : Shape).Idx → EReal)
    (W3 : (⟨2, ![512, 512]⟩ : Shape).Idx → EReal) (B3 : (⟨1, ![512]⟩ : Shape).Idx → EReal)
    (W4 : (⟨2, ![10, 512]⟩ : Shape).Idx → EReal) (B4 : (⟨1, ![10]⟩ : Shape).Idx → EReal)
    (h1 : ∀ i, ∃ r : ℝ, W1 i = (r : EReal)) (h2 : ∀ i, ∃ r : ℝ, W2 i = (r : EReal)) (h3 : ∀ i, ∃ r : ℝ, W3 i = (r : EReal)) :
    Gste X W1 B1 W2 B2 W3 B3 W4 B4 = G X W1 B1 W2 B2 W3 B3 W4 B4 := by
  funext i
  unfold Gste G
  rw [steW_eq_binW W1 h1, steW_eq_binW W2 h2, steW_eq_binW W3 h3]

end Cert.Mlp

end
-- ==== Proof.BodyTerm.lean ====
/-
  The kernel body's arithmetic as one term of its nine input blocks: the binarized copies of the three hidden
  weight blocks and the copy of the last one, then the four products with bias and rectifier. At the grid's first
  point the body stores those copies and reads them back; at every later point it reads what the first point
  stored. Both are this term.
-/
import proofs.«181393_j44057774522909_1_alg».proof.Proof.Gen.KernelIdeal.Skeleton

noncomputable section

namespace Cert.Mlp

open Idealize.ShloMosaic Cert.KernelIdeal Cert.KernelIdeal.Gen

variable {F : FTy → Type} [FloatOps F]

/-- The body's result block from the four stored weight copies. -/
def bodyFrom (x0 : Vec F S1024x784 .f32) (s0 : Vec F S512x784 .bf16) (x2 : Vec F S512 .f32) (s1 : Vec F S512x512 .bf16)
    (x4 : Vec F S512 .f32) (s2 : Vec F S512x512 .bf16) (x6 : Vec F S512 .f32) (s3 : Vec F S10x512 .bf16)
    (x8 : Vec F S10 .f32) : FVec F S1024x10 .f32 :=
  k0_pay1 (k0_pay7 x0 s0 x2 s1 x4 s2 x6 s3) x8

/-- The body's result block from the nine input blocks. -/
def body (x0 : Vec F S1024x784 .f32) (x1 : Vec F S512x784 .f32) (x2 : Vec F S512 .f32) (x3 : Vec F S512x512 .f32)
    (x4 : Vec F S512 .f32) (x5 : Vec F S512x512 .f32) (x6 : Vec F S512 .f32) (x7 : Vec F S10x512 .f32)
    (x8 : Vec F S10 .f32) : FVec F S1024x10 .f32 :=
  bodyFrom x0 (k0_pay2 x1) x2 (k0_pay3 x3) x4 (k0_pay4 x5) x6 (k0_pay6 (k0_pay5 x7)) x8

end Cert.Mlp

end
-- ==== Proof.Pieces.lean ====
/-
  What one run of the kernel body leaves behind, as values.

  At the grid's first point the body writes four weight copies (three binarized, one plain) into the four buffers it
  keeps between points, reads them back, and writes its result block; at every later point it writes nothing into
  those buffers and computes its result block from what they hold. Each buffer is written by one store that covers
  it, so its contents afterwards are that store's value; a value read back after such a store is the stored value.
-/
import proofs.«181393_j44057774522909_1_alg».proof.Proof.Gen.KernelIdeal.Frame
import proofs.«181393_j44057774522909_1_alg».proof.Proof.BodyTerm
import Idealize.ShloMosaic.Lib.Pipeline.Value
import Idealize.ShloMosaic.Lib.Tactic

set_option maxRecDepth 16384

noncomputable section

namespace Cert.Mlp

open Idealize.ShloMosaic Idealize.ShloMosaic.TcCoe Idealize.SL.Sem Idealize.ShloMosaic.Tactic
open Cert.KernelIdeal Cert.KernelIdeal.Gen
open Idealize.ShloMosaic.Pipeline (Dat)

variable {F : FTy → Type} [FloatOps F]

/-- The origin of a two-axis block. -/
theorem hz2 : (![0, 0] : Fin 2 → Nat) = fun _ => 0 := funext fun a => by fin_cases a <;> rfl

/-- The origin of a one-axis block. -/
theorem hz1 : (![0] : Fin 1 → Nat) = fun _ => 0 := funext fun a => by fin_cases a; rfl

/-- After the first point, the first scratch holds the binarized copy of the first weight block. -/
theorem sout0_A_0_eq (c : Dev nD) (i : grid0.Coords) (arg1 : Memref sig .tc .vmem S1024x784 .f32) (harg1 : arg1.IsWhole) (arg2 : Memref sig .tc .vmem S512x784 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S10x512 .f32) (harg8 : arg8.IsWhole) (arg9 : Memref sig .tc .vmem S10 .f32) (harg9 : arg9.IsWhole) (arg10 : Memref sig .tc .vmem S1024x10 .f32) (harg10 : arg10.IsWhole) (arg11 : Memref sig .tc .vmem S512x784 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S10x512 .bf16) (harg14 : arg14.IsWhole) (hc0 : cond0_0 i) (x0 : Vec F S1024x784 .f32) (x1 : Vec F S512x784 .f32) (x2 : Vec F S512 .f32) (x3 : Vec F S512x512 .f32) (x4 : Vec F S512 .f32) (x5 : Vec F S512x512 .f32) (x6 : Vec F S512 .f32) (x7 : Vec F S10x512 .f32) (x8 : Vec F S10 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay2 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg2.read_unread, View.ld_unit_zero (S := S512x784) hz2]

/-- … the second scratch the binarized copy of the second weight block. -/
theorem sout0_A_1_eq (c : Dev nD) (i : grid0.Coords) (arg1 : Memref sig .tc .vmem S1024x784 .f32) (harg1 : arg1.IsWhole) (arg2 : Memref sig .tc .vmem S512x784 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S10x512 .f32) (harg8 : arg8.IsWhole) (arg9 : Memref sig .tc .vmem S10 .f32) (harg9 : arg9.IsWhole) (arg10 : Memref sig .tc .vmem S1024x10 .f32) (harg10 : arg10.IsWhole) (arg11 : Memref sig .tc .vmem S512x784 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S10x512 .bf16) (harg14 : arg14.IsWhole) (hc0 : cond0_0 i) (x0 : Vec F S1024x784 .f32) (x1 : Vec F S512x784 .f32) (x2 : Vec F S512 .f32) (x3 : Vec F S512x512 .f32) (x4 : Vec F S512 .f32) (x5 : Vec F S512x512 .f32) (x6 : Vec F S512 .f32) (x7 : Vec F S10x512 .f32) (x8 : Vec F S10 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay3 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg4.read_unread, View.ld_unit_zero (S := S512x512) hz2]

/-- … the third scratch the binarized copy of the third weight block. -/
theorem sout0_A_2_eq (c : Dev nD) (i : grid0.Coords) (arg1 : Memref sig .tc .vmem S1024x784 .f32) (harg1 : arg1.IsWhole) (arg2 : Memref sig .tc .vmem S512x784 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S10x512 .f32) (harg8 : arg8.IsWhole) (arg9 : Memref sig .tc .vmem S10 .f32) (harg9 : arg9.IsWhole) (arg10 : Memref sig .tc .vmem S1024x10 .f32) (harg10 : arg10.IsWhole) (arg11 : Memref sig .tc .vmem S512x784 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S10x512 .bf16) (harg14 : arg14.IsWhole) (hc0 : cond0_0 i) (x0 : Vec F S1024x784 .f32) (x1 : Vec F S512x784 .f32) (x2 : Vec F S512 .f32) (x3 : Vec F S512x512 .f32) (x4 : Vec F S512 .f32) (x5 : Vec F S512x512 .f32) (x6 : Vec F S512 .f32) (x7 : Vec F S10x512 .f32) (x8 : Vec F S10 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay4 x5 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg6.read_unread, View.ld_unit_zero (S := S512x512) hz2]

/-- … and the fourth scratch the copy of the last weight block. -/
theorem sout0_A_3_eq (c : Dev nD) (i : grid0.Coords) (arg1 : Memref sig .tc .vmem S1024x784 .f32) (harg1 : arg1.IsWhole) (arg2 : Memref sig .tc .vmem S512x784 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S10x512 .f32) (harg8 : arg8.IsWhole) (arg9 : Memref sig .tc .vmem S10 .f32) (harg9 : arg9.IsWhole) (arg10 : Memref sig .tc .vmem S1024x10 .f32) (harg10 : arg10.IsWhole) (arg11 : Memref sig .tc .vmem S512x784 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S10x512 .bf16) (harg14 : arg14.IsWhole) (hc0 : cond0_0 i) (x0 : Vec F S1024x784 .f32) (x1 : Vec F S512x784 .f32) (x2 : Vec F S512 .f32) (x3 : Vec F S512x512 .f32) (x4 : Vec F S512 .f32) (x5 : Vec F S512x512 .f32) (x6 : Vec F S512 .f32) (x7 : Vec F S10x512 .f32) (x8 : Vec F S10 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay6 (k0_pay5 x7) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg8.read_unread, View.ld_unit_zero (S := S10x512) hz2]

/-- At a later point the body's result block is its arithmetic over the input blocks and the four scratch
    contents the point before left. -/
theorem out0_B_9_eq (c : Dev nD) (i : grid0.Coords) (arg1 : Memref sig .tc .vmem S1024x784 .f32) (harg1 : arg1.IsWhole) (arg2 : Memref sig .tc .vmem S512x784 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S10x512 .f32) (harg8 : arg8.IsWhole) (arg9 : Memref sig .tc .vmem S10 .f32) (harg9 : arg9.IsWhole) (arg10 : Memref sig .tc .vmem S1024x10 .f32) (harg10 : arg10.IsWhole) (arg11 : Memref sig .tc .vmem S512x784 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S10x512 .bf16) (harg14 : arg14.IsWhole) (hc0 : ¬cond0_0 i) (x0 : Vec F S1024x784 .f32) (x1 : Vec F S512x784 .f32) (x2 : Vec F S512 .f32) (x3 : Vec F S512x512 .f32) (x4 : Vec F S512 .f32) (x5 : Vec F S512x512 .f32) (x6 : Vec F S512 .f32) (x7 : Vec F S10x512 .f32) (x8 : Vec F S10 .f32) (xs0 : Vec F S512x784 .bf16) (xs1 : Vec F S512x512 .bf16) (xs2 : Vec F S512x512 .bf16) (xs3 : Vec F S10x512 .bf16) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 xs3 = bodyFrom x0 xs0 x2 xs1 x4 xs2 x6 xs3 x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 xs3)]
  unfold kernelRun0_B
  dsimp only
  sl_unfold_words
  rw [View.canon_unit_zero hz2]
  unfold bodyFrom
  simp only [View.readAt_eq_ld, harg1.read_unread, harg3.read_unread, harg5.read_unread, harg7.read_unread, harg9.read_unread,
    harg11.read_unread, harg12.read_unread, harg13.read_unread, harg14.read_unread,
    View.ld_unit_zero (S := S1024x784) hz2, View.ld_unit_zero (S := S512x784) hz2, View.ld_unit_zero (S := S512x512) hz2,
    View.ld_unit_zero (S := S10x512) hz2, View.ld_unit_zero (S := S512) hz1, View.ld_unit_zero (S := S10) hz1]

/-- At the first point the body stores the four copies, reads them back, and its result block is its arithmetic
    over the nine input blocks. -/
theorem out0_A_9_eq (c : Dev nD) (i : grid0.Coords) (arg1 : Memref sig .tc .vmem S1024x784 .f32) (harg1 : arg1.IsWhole) (arg2 : Memref sig .tc .vmem S512x784 .f32) (harg2 : arg2.IsWhole) (arg3 : Memref sig .tc .vmem S512 .f32) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S10x512 .f32) (harg8 : arg8.IsWhole) (arg9 : Memref sig .tc .vmem S10 .f32) (harg9 : arg9.IsWhole) (arg10 : Memref sig .tc .vmem S1024x10 .f32) (harg10 : arg10.IsWhole) (arg11 : Memref sig .tc .vmem S512x784 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S10x512 .bf16) (harg14 : arg14.IsWhole) (hc0 : cond0_0 i) (x0 : Vec F S1024x784 .f32) (x1 : Vec F S512x784 .f32) (x2 : Vec F S512 .f32) (x3 : Vec F S512x512 .f32) (x4 : Vec F S512 .f32) (x5 : Vec F S512x512 .f32) (x6 : Vec F S512 .f32) (x7 : Vec F S10x512 .f32) (x8 : Vec F S10 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = body x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  unfold body bodyFrom
  simp only [View.readAt_eq_ld, harg1.read_unread, harg2.read_unread, harg3.read_unread, harg4.read_unread, harg5.read_unread,
    harg6.read_unread, harg7.read_unread, harg8.read_unread, harg9.read_unread,
    View.readCov_unit_zero (S := S512x784) _ hz2, View.readCov_unit_zero (S := S512x512) _ hz2,
    View.readCov_unit_zero (S := S10x512) _ hz2,
    View.ld_unit_zero (S := S1024x784) hz2, View.ld_unit_zero (S := S512x784) hz2, View.ld_unit_zero (S := S512x512) hz2,
    View.ld_unit_zero (S := S10x512) hz2, View.ld_unit_zero (S := S512) hz1, View.ld_unit_zero (S := S10) hz1]

end Cert.Mlp

end
-- ==== Proof.Carried.lean ====
/-
  What the kernel's buffers hold after each grid point.

  The eight weight and bias windows never move and each block is its whole array, so at every point the body sees the
  same weight arrays. The first point stores the weight copies; every later point leaves them as it found them. By
  induction on the point, after every point the result buffer holds the body's arithmetic on that point's block of
  input rows and the (unchanging) weight arrays.
-/
import proofs.«181393_j44057774522909_1_alg».proof.Proof.Pieces

set_option maxRecDepth 16384

noncomputable section

namespace Cert.Mlp

open Idealize.ShloMosaic Idealize.ShloMosaic.TcCoe Idealize.SL.Sem Idealize.ShloMosaic.Tactic
open Cert.KernelIdeal Cert.KernelIdeal.Gen
open Idealize.ShloMosaic.Pipeline (Dat)

variable {F : FTy → Type} [FloatOps F]
variable (m : (ℓ : Loc nD τ sig) → Buf (Elt F) ℓ)

/-- The input block of point `t`: rows 1024·t … 1024·t + 1023 of the input. -/
abbrev xblk (c : Dev nD) (t : Fin cfg0.N) : Vec F S1024x784 .f32 := iblk m c 0 t
/-- Argument 1 as the region finds it. -/
abbrev W1 (c : Dev nD) : Vec F S512x784 .f32 := V m c main_arg1
/-- Argument 2 as the region finds it. -/
abbrev B1 (c : Dev nD) : Vec F S512 .f32 := V m c main_arg2
/-- Argument 3 as the region finds it. -/
abbrev W2 (c : Dev nD) : Vec F S512x512 .f32 := V m c main_arg3
/-- Argument 4 as the region finds it. -/
abbrev B2 (c : Dev nD) : Vec F S512 .f32 := V m c main_arg4
/-- Argument 5 as the region finds it. -/
abbrev W3 (c : Dev nD) : Vec F S512x512 .f32 := V m c main_arg5
/-- Argument 6 as the region finds it. -/
abbrev B3 (c : Dev nD) : Vec F S512 .f32 := V m c main_arg6
/-- Argument 7 as the region finds it. -/
abbrev W4 (c : Dev nD) : Vec F S10x512 .f32 := V m c main_arg7
/-- Argument 8 as the region finds it. -/
abbrev B4 (c : Dev nD) : Vec F S10 .f32 := V m c main_arg8

/-- Window 1's index never moves and its block is the whole array: at every point its block is the array. -/
theorem iblk_whole1 (c : Dev nD) (t : Fin cfg0.N) : (iblk m c 1 t : Vec F S512x784 .f32) = W1 m c := by
  have hi : win0_1.index t 0 = 0 ∧ win0_1.index t 1 = 0 :=
    (by decide +kernel : ∀ t : Fin grid0.N, win0_1.index t 0 = 0 ∧ win0_1.index t 1 = 0) t
  funext j
  unfold iblk
  rw [View.read_apply]
  show V m c main_arg1 _ = V m c main_arg1 j
  congr 1
  funext a
  apply Fin.ext
  match a with
  | ⟨0, _⟩ => show win0_1.index t 0 * 512 + 1 * (j 0).val = (j 0).val; rw [hi.1]; omega
  | ⟨1, _⟩ => show win0_1.index t 1 * 784 + 1 * (j 1).val = (j 1).val; rw [hi.2]; omega

/-- Window 2's index never moves and its block is the whole array: at every point its block is the array. -/
theorem iblk_whole2 (c : Dev nD) (t : Fin cfg0.N) : (iblk m c 2 t : Vec F S512 .f32) = B1 m c := by
  have hi : win0_2.index t 0 = 0 :=
    (by decide +kernel : ∀ t : Fin grid0.N, win0_2.index t 0 = 0) t
  funext j
  unfold iblk
  rw [View.read_apply]
  show V m c main_arg2 _ = V m c main_arg2 j
  congr 1
  funext a
  apply Fin.ext
  match a with
  | ⟨0, _⟩ => show win0_2.index t 0 * 512 + 1 * (j 0).val = (j 0).val; rw [hi]; omega

/-- Window 3's index never moves and its block is the whole array: at every point its block is the array. -/
theorem iblk_whole3 (c : Dev nD) (t : Fin cfg0.N) : (iblk m c 3 t : Vec F S512x512 .f32) = W2 m c := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  show V m c main_arg3 _ = V m c main_arg3 j
  congr 1
  funext a
  apply Fin.ext
  match a with
  | ⟨0, _⟩ => show win0_3.index t 0 * 512 + 1 * (j 0).val = (j 0).val; rw [hi.1]; omega
  | ⟨1, _⟩ => show win0_3.index t 1 * 512 + 1 * (j 1).val = (j 1).val; rw [hi.2]; omega

/-- Window 4's index never moves and its block is the whole array: at every point its block is the array. -/
theorem iblk_whole4 (c : Dev nD) (t : Fin cfg0.N) : (iblk m c 4 t : Vec F S512 .f32) = B2 m c := by
  have hi : win0_4.index t 0 = 0 :=
    (by decide +kernel : ∀ t : Fin grid0.N, win0_4.index t 0 = 0) t
  funext j
  unfold iblk
  rw [View.read_apply]
  show V m c main_arg4 _ = V m c main_arg4 j
  congr 1
  funext a
  apply Fin.ext
  match a with
  | ⟨0, _⟩ => show win0_4.index t 0 * 512 + 1 * (j 0).val = (j 0).val; rw [hi]; omega

/-- Window 5's index never moves and its block is the whole array: at every point its block is the array. -/
theorem iblk_whole5 (c : Dev nD) (t : Fin cfg0.N) : (iblk m c 5 t : Vec F S512x512 .f32) = W3 m c := by
  have hi : win0_5.index t 0 = 0 ∧ win0_5.index t 1 = 0 :=
    (by decide +kernel : ∀ t : Fin grid0.N, win0_5.index t 0 = 0 ∧ win0_5.index t 1 = 0) t
  funext j
  unfold iblk
  rw [View.read_apply]
  show V m c main_arg5 _ = V m c main_arg5 j
  congr 1
  funext a
  apply Fin.ext
  match a with
  | ⟨0, _⟩ => show win0_5.index t 0 * 512 + 1 * (j 0).val = (j 0).val; rw [hi.1]; omega
  | ⟨1, _⟩ => show win0_5.index t 1 * 512 + 1 * (j 1).val = (j 1).val; rw [hi.2]; omega

/-- Window 6's index never moves and its block is the whole array: at every point its block is the array. -/
theorem iblk_whole6 (c : Dev nD) (t : Fin cfg0.N) : (iblk m c 6 t : Vec F S512 .f32) = B3 m c := by
  have hi : win0_6.index t 0 = 0 :=
    (by decide +kernel : ∀ t : Fin grid0.N, win0_6.index t 0 = 0) t
  funext j
  unfold iblk
  rw [View.read_apply]
  show V m c main_arg6 _ = V m c main_arg6 j
  congr 1
  funext a
  apply Fin.ext
  match a with
  | ⟨0, _⟩ => show win0_6.index t 0 * 512 + 1 * (j 0).val = (j 0).val; rw [hi]; omega

/-- Window 7's index never moves and its block is the whole array: at every point its block is the array. -/
theorem iblk_whole7 (c : Dev nD) (t : Fin cfg0.N) : (iblk m c 7 t : Vec F S10x512 .f32) = W4 m c := by
  have hi : win0_7.index t 0 = 0 ∧ win0_7.index t 1 = 0 :=
    (by decide +kernel : ∀ t : Fin grid0.N, win0_7.index t 0 = 0 ∧ win0_7.index t 1 = 0) t
  funext j
  unfold iblk
  rw [View.read_apply]
  show V m c main_arg7 _ = V m c main_arg7 j
  congr 1
  funext a
  apply Fin.ext
  match a with
  | ⟨0, _⟩ => show win0_7.index t 0 * 10 + 1 * (j 0).val = (j 0).val; rw [hi.1]; omega
  | ⟨1, _⟩ => show win0_7.index t 1 * 512 + 1 * (j 1).val = (j 1).val; rw [hi.2]; omega

/-- Window 8's index never moves and its block is the whole array: at every point its block is the array. -/
theorem iblk_whole8 (c : Dev nD) (t : Fin cfg0.N) : (iblk m c 8 t : Vec F S10 .f32) = B4 m c := by
  have hi : win0_8.index t 0 = 0 :=
    (by decide +kernel : ∀ t : Fin grid0.N, win0_8.index t 0 = 0) t
  funext j
  unfold iblk
  rw [View.read_apply]
  show V m c main_arg8 _ = V m c main_arg8 j
  congr 1
  funext a
  apply Fin.ext
  match a with
  | ⟨0, _⟩ => show win0_8.index t 0 * 10 + 1 * (j 0).val = (j 0).val; rw [hi]; omega

/-- After every point: the result buffer holds the body's arithmetic on that point's input block and the weight
    arrays, and the four kept buffers hold the weight copies the first point made. By induction on the point: the
    first point stores the copies, every later point leaves them as it found them. -/
theorem outsAt_eq (c : Dev nD) : ∀ (n : ℕ) (h : n < cfg0.N),
    outsAt0 m c n h = (body (xblk m c ⟨n, h⟩) (W1 m c) (B1 m c) (W2 m c) (B2 m c) (W3 m c) (B3 m c) (W4 m c) (B4 m c),
      k0_pay2 (W1 m c), k0_pay3 (W2 m c), k0_pay4 (W3 m c), k0_pay6 (k0_pay5 (W4 m c)))
  | 0, h => by
    rw [outsAt0_A m c ⟨0, h⟩ rfl]
    rw [out0_A_9_eq, sout0_A_0_eq, sout0_A_1_eq, sout0_A_2_eq, sout0_A_3_eq]
    rw [iblk_whole1, iblk_whole2, iblk_whole3, iblk_whole4, iblk_whole5, iblk_whole6, iblk_whole7, iblk_whole8]
  | n + 1, h => by
    have hN : cfg0.N = 64 := N_0
    have hB : ¬(⟨n + 1, h⟩ : Fin cfg0.N).val % 64 = 0 := by dsimp only; omega
    have ih := outsAt_eq c n (Nat.lt_of_succ_lt h)
    rw [outsAt0_B m c ⟨n + 1, h⟩ hB, out0_B_9_eq]
    dsimp only [sout0_B_0, sout0_B_1, sout0_B_2, sout0_B_3]
    show (bodyFrom (iblk m c 0 ⟨n + 1, h⟩) (outsAt0 m c n (Nat.lt_of_succ_lt h)).2.1 (iblk m c 2 ⟨n + 1, h⟩) (outsAt0 m c n (Nat.lt_of_succ_lt h)).2.2.1 (iblk m c 4 ⟨n + 1, h⟩)
        (outsAt0 m c n (Nat.lt_of_succ_lt h)).2.2.2.1 (iblk m c 6 ⟨n + 1, h⟩) (outsAt0 m c n (Nat.lt_of_succ_lt h)).2.2.2.2 (iblk m c 8 ⟨n + 1, h⟩),
      (outsAt0 m c n (Nat.lt_of_succ_lt h)).2.1, (outsAt0 m c n (Nat.lt_of_succ_lt h)).2.2.1, (outsAt0 m c n (Nat.lt_of_succ_lt h)).2.2.2.1, (outsAt0 m c n (Nat.lt_of_succ_lt h)).2.2.2.2) = _
    rw [ih]
    dsimp only
    unfold body
    rw [iblk_whole2, iblk_whole4, iblk_whole6, iblk_whole8]

end Cert.Mlp

end
-- ==== Proof.KernelBody.lean ====
/-
  The kernel body's term read at an entry of its result block: entry [r, o] is the network on row r of the
  input block, with the hidden weight blocks binarized.
-/
import proofs.«181393_j44057774522909_1_alg».proof.Proof.BodyTerm
import proofs.«181393_j44057774522909_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Mlp

open Idealize.ShloMosaic Idealize.ShloMosaic.ValueIdx Cert.KernelIdeal Cert.KernelIdeal.Gen

/-! ### The product 1024x784 · (512x784)ᵀ read at an entry -/

theorem lhs_d1_0 (i : S1024x512.Idx) (q : dot_S1024x784_S512x784_S1024x512_1_1_0_0_n_n.contr.Idx) :
    (dot_S1024x784_S512x784_S1024x512_1_1_0_0_n_n.lhsIdx i q 0).val = (i 0).val := by
  unfold DotDims.lhsIdx
  rw [dif_neg (show ¬(0 : Fin S1024x784.rank) ∈ dot_S1024x784_S512x784_S1024x512_1_1_0_0_n_n.lhsBatch by decide), dif_pos (show (0 : Fin S1024x784.rank) ∈ dot_S1024x784_S512x784_S1024x512_1_1_0_0_n_n.lhsNonContracting by decide)]
  rfl
theorem lhs_d1_1 (i : S1024x512.Idx) (q : dot_S1024x784_S512x784_S1024x512_1_1_0_0_n_n.contr.Idx) :
    (dot_S1024x784_S512x784_S1024x512_1_1_0_0_n_n.lhsIdx i q 1).val = (q ⟨0, by decide⟩).val :=
  dot_S1024x784_S512x784_S1024x512_1_1_0_0_n_n.lhsIdx_val_of_single rfl i q
theorem rhs_d1_0 (i : S1024x512.Idx) (q : dot_S1024x784_S512x784_S1024x512_1_1_0_0_n_n.contr.Idx) :
    (dot_S1024x784_S512x784_S1024x512_1_1_0_0_n_n.rhsIdx i q 0).val = (i 1).val := by
  unfold DotDims.rhsIdx
  rw [dif_neg (show ¬(0 : Fin S512x784.rank) ∈ dot_S1024x784_S512x784_S1024x512_1_1_0_0_n_n.rhsBatch by decide), dif_pos (show (0 : Fin S512x784.rank) ∈ dot_S1024x784_S512x784_S1024x512_1_1_0_0_n_n.rhsNonContracting by decide)]
  rfl
theorem rhs_d1_1 (i : S1024x512.Idx) (q : dot_S1024x784_S512x784_S1024x512_1_1_0_0_n_n.contr.Idx) :
    (dot_S1024x784_S512x784_S1024x512_1_1_0_0_n_n.rhsIdx i q 1).val = (q ⟨0, by decide⟩).val :=
  dot_S1024x784_S512x784_S1024x512_1_1_0_0_n_n.rhsIdx_val_of_single rfl i q

/-- Entry [r, j] of the product into a zero accumulator is the sum over k of left[r, k] · right[j, k]:
    both operands contract their last axis. -/
theorem matmul_d1_apply {φ₁ φ₂ : FTy} (h : FVec Ideal S1024x784 φ₁) (s : FVec Ideal S512x784 φ₂) (r : Fin 1024) (j : Fin 512) :
    matmul dot_S1024x784_S512x784_S1024x512_1_1_0_0_n_n none h s (constant (F := Ideal) S1024x512 .f32 0x00000000#32) (ix2 r j)
      = ∑ k : Fin 784, h (ix2 r k) * s (ix2 j k) := by
  simp only [matmul]
  rw [Ideal.matmul_constant_zero_apply, ← Equiv.sum_comp (ValueIdx.contrEquiv1 dot_S1024x784_S512x784_S1024x512_1_1_0_0_n_n 784 rfl rfl).symm]
  refine Finset.sum_congr rfl fun k _ => ?_
  have hk := ValueIdx.contrEquiv1_symm_val dot_S1024x784_S512x784_S1024x512_1_1_0_0_n_n 784 rfl rfl k
  have el : dot_S1024x784_S512x784_S1024x512_1_1_0_0_n_n.lhsIdx (ix2 r j) ((ValueIdx.contrEquiv1 dot_S1024x784_S512x784_S1024x512_1_1_0_0_n_n 784 rfl rfl).symm k) = ix2 r k := funext fun a => Fin.ext (by
    match a with
    | ⟨0, _⟩ => exact lhs_d1_0 _ _
    | ⟨1, _⟩ => exact (lhs_d1_1 _ _).trans hk)
  have er : dot_S1024x784_S512x784_S1024x512_1_1_0_0_n_n.rhsIdx (ix2 r j) ((ValueIdx.contrEquiv1 dot_S1024x784_S512x784_S1024x512_1_1_0_0_n_n 784 rfl rfl).symm k) = ix2 j k := funext fun a => Fin.ext (by
    match a with
    | ⟨0, _⟩ => exact rhs_d1_0 _ _
    | ⟨1, _⟩ => exact (rhs_d1_1 _ _).trans hk)
  rw [el, er]

/-! ### The product 1024x512 · (512x512)ᵀ read at an entry -/

theorem lhs_d2_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_d2_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhs_d2_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_d2_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- Entry [r, j] of the product into a zero accumulator is the sum over k of left[r, k] · right[j, k]:
    both operands contract their last axis. -/
theorem matmul_d2_apply {φ₁ φ₂ : FTy} (h : FVec Ideal S1024x512 φ₁) (s : FVec Ideal S512x512 φ₂) (r : Fin 1024) (j : Fin 512) :
    matmul dot_S1024x512_S512x512_S1024x512_1_1_0_0_n_n none h s (constant (F := Ideal) S1024x512 .f32 0x00000000#32) (ix2 r j)
      = ∑ k : Fin 512, h (ix2 r k) * s (ix2 j k) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 r j) ((ValueIdx.contrEquiv1 dot_S1024x512_S512x512_S1024x512_1_1_0_0_n_n 512 rfl rfl).symm k) = ix2 r k := funext fun a => Fin.ext (by
    match a with
    | ⟨0, _⟩ => exact lhs_d2_0 _ _
    | ⟨1, _⟩ => exact (lhs_d2_1 _ _).trans hk)
  have er : dot_S1024x512_S512x512_S1024x512_1_1_0_0_n_n.rhsIdx (ix2 r j) ((ValueIdx.contrEquiv1 dot_S1024x512_S512x512_S1024x512_1_1_0_0_n_n 512 rfl rfl).symm k) = ix2 j k := funext fun a => Fin.ext (by
    match a with
    | ⟨0, _⟩ => exact rhs_d2_0 _ _
    | ⟨1, _⟩ => exact (rhs_d2_1 _ _).trans hk)
  rw [el, er]

/-! ### The product 1024x512 · (10x512)ᵀ read at an entry -/

theorem lhs_d3_0 (i : S1024x10.Idx) (q : dot_S1024x512_S10x512_S1024x10_1_1_0_0_n_n.contr.Idx) :
    (dot_S1024x512_S10x512_S1024x10_1_1_0_0_n_n.lhsIdx i q 0).val = (i 0).val := by
  unfold DotDims.lhsIdx
  rw [dif_neg (show ¬(0 : Fin S1024x512.rank) ∈ dot_S1024x512_S10x512_S1024x10_1_1_0_0_n_n.lhsBatch by decide), dif_pos (show (0 : Fin S1024x512.rank) ∈ dot_S1024x512_S10x512_S1024x10_1_1_0_0_n_n.lhsNonContracting by decide)]
  rfl
theorem lhs_d3_1 (i : S1024x10.Idx) (q : dot_S1024x512_S10x512_S1024x10_1_1_0_0_n_n.contr.Idx) :
    (dot_S1024x512_S10x512_S1024x10_1_1_0_0_n_n.lhsIdx i q 1).val = (q ⟨0, by decide⟩).val :=
  dot_S1024x512_S10x512_S1024x10_1_1_0_0_n_n.lhsIdx_val_of_single rfl i q
theorem rhs_d3_0 (i : S1024x10.Idx) (q : dot_S1024x512_S10x512_S1024x10_1_1_0_0_n_n.contr.Idx) :
    (dot_S1024x512_S10x512_S1024x10_1_1_0_0_n_n.rhsIdx i q 0).val = (i 1).val := by
  unfold DotDims.rhsIdx
  rw [dif_neg (show ¬(0 : Fin S10x512.rank) ∈ dot_S1024x512_S10x512_S1024x10_1_1_0_0_n_n.rhsBatch by decide), dif_pos (show (0 : Fin S10x512.rank) ∈ dot_S1024x512_S10x512_S1024x10_1_1_0_0_n_n.rhsNonContracting by decide)]
  rfl
theorem rhs_d3_1 (i : S1024x10.Idx) (q : dot_S1024x512_S10x512_S1024x10_1_1_0_0_n_n.contr.Idx) :
    (dot_S1024x512_S10x512_S1024x10_1_1_0_0_n_n.rhsIdx i q 1).val = (q ⟨0, by decide⟩).val :=
  dot_S1024x512_S10x512_S1024x10_1_1_0_0_n_n.rhsIdx_val_of_single rfl i q

/-- Entry [r, j] of the product into a zero accumulator is the sum over k of left[r, k] · right[j, k]:
    both operands contract their last axis. -/
theorem matmul_d3_apply {φ₁ φ₂ : FTy} (h : FVec Ideal S1024x512 φ₁) (s : FVec Ideal S10x512 φ₂) (r : Fin 1024) (j : Fin 10) :
    matmul dot_S1024x512_S10x512_S1024x10_1_1_0_0_n_n none h s (constant (F := Ideal) S1024x10 .f32 0x00000000#32) (ix2 r j)
      = ∑ k : Fin 512, h (ix2 r k) * s (ix2 j k) := by
  simp only [matmul]
  rw [Ideal.matmul_constant_zero_apply, ← Equiv.sum_comp (ValueIdx.contrEquiv1 dot_S1024x512_S10x512_S1024x10_1_1_0_0_n_n 512 rfl rfl).symm]
  refine Finset.sum_congr rfl fun k _ => ?_
  have hk := ValueIdx.contrEquiv1_symm_val dot_S1024x512_S10x512_S1024x10_1_1_0_0_n_n 512 rfl rfl k
  have el : dot_S1024x512_S10x512_S1024x10_1_1_0_0_n_n.lhsIdx (ix2 r j) ((ValueIdx.contrEquiv1 dot_S1024x512_S10x512_S1024x10_1_1_0_0_n_n 512 rfl rfl).symm k) = ix2 r k := funext fun a => Fin.ext (by
    match a with
    | ⟨0, _⟩ => exact lhs_d3_0 _ _
    | ⟨1, _⟩ => exact (lhs_d3_1 _ _).trans hk)
  have er : dot_S1024x512_S10x512_S1024x10_1_1_0_0_n_n.rhsIdx (ix2 r j) ((ValueIdx.contrEquiv1 dot_S1024x512_S10x512_S1024x10_1_1_0_0_n_n 512 rfl rfl).symm k) = ix2 j k := funext fun a => Fin.ext (by
    match a with
    | ⟨0, _⟩ => exact rhs_d3_0 _ _
    | ⟨1, _⟩ => exact (rhs_d3_1 _ _).trans hk)
  rw [el, er]

/-! ### A bias vector spread over the rows -/

/-- The bias [512] viewed [1, 512] and broadcast over 1024 rows reads its entry j at [r, j]. -/
theorem bias512_apply (b : Vec Ideal S512 .f32) (r : Fin 1024) (j : Fin 512) :
    broadcastTo S1024x512 (shapeCast S1x512 b shapeCasts_S512_S1x512) broadcasts_S1x512_S1024x512 (ix2 r j) = b (ix1 j) := by
  rw [broadcastTo_1b_ab_apply, shapeCast_a_1a_apply]

/-- The bias [10] viewed [1, 10] and broadcast over 1024 rows reads its entry o at [r, o]. -/
theorem bias10_apply (b : Vec Ideal S10 .f32) (r : Fin 1024) (o : Fin 10) :
    broadcastTo S1024x10 (shapeCast S1x10 b shapeCasts_S10_S1x10) broadcasts_S1x10_S1024x10 (ix2 r o) = b (ix1 o) := by
  rw [broadcastTo_1b_ab_apply, shapeCast_a_1a_apply]

/-! ### The stored weight copies -/

/-- Entry [j, k] of the first binarized copy is β of the weight there. -/
theorem pay2_apply (x1 : Vec Ideal S512x784 .f32) (j : Fin 512) (k : Fin 784) :
    k0_pay2 (F := Ideal) x1 (ix2 j k) = binW x1 j k := by
  unfold k0_pay2
  rw [shapeCast_self]
  rfl

/-- Entry [j, k] of the second binarized copy is β of the weight there. -/
theorem pay3_apply (x3 : Vec Ideal S512x512 .f32) (j : Fin 512) (k : Fin 512) :
    k0_pay3 (F := Ideal) x3 (ix2 j k) = binW x3 j k := by
  unfold k0_pay3
  rw [shapeCast_self]
  rfl

/-- Entry [j, k] of the third binarized copy is β of the weight there. -/
theorem pay4_apply (x5 : Vec Ideal S512x512 .f32) (j : Fin 512) (k : Fin 512) :
    k0_pay4 (F := Ideal) x5 (ix2 j k) = binW x5 j k := by
  unfold k0_pay4
  rw [shapeCast_self]
  rfl

/-- Entry [o, k] of the copy of the last weight block is the weight there. -/
theorem pay6_apply (x7 : Vec Ideal S10x512 .f32) (o : Fin 10) (k : Fin 512) :
    k0_pay6 (F := Ideal) (k0_pay5 (F := Ideal) x7) (ix2 o k) = matW x7 o k := by
  unfold k0_pay6 k0_pay5
  rw [shapeCast_self]
  rfl

/-! ### One rectified layer of the body read at an entry -/

/-- The first layer: product with the stored copy, bias row, rectifier. If row r of the left operand is g and the
    right operand's rows are w, entry [r, j] is the specification's hidden g w b j. -/
theorem layer784_apply (h : FVec Ideal S1024x784 .bf16) (s : FVec Ideal S512x784 .bf16) (b : Vec Ideal S512 .f32)
    (g : Fin 784 → EReal) (w : Fin 512 → Fin 784 → EReal) (r : Fin 1024)
    (hg : ∀ k, h (ix2 r k) = g k) (hw : ∀ j k, s (ix2 j k) = w j k) (j : Fin 512) :
    maximumf (addf (matmul dot_S1024x784_S512x784_S1024x512_1_1_0_0_n_n none h s (constant (F := Ideal) S1024x512 .f32 0x00000000#32))
        (broadcastTo S1024x512 (shapeCast S1x512 b shapeCasts_S512_S1x512) broadcasts_S1x512_S1024x512))
      (broadcast S1024x512 (Scalar.ofBits (F := Ideal) .f32 0x00000000#32)) (ix2 r j)
      = hidden g w (vecB b) j := by
  rw [maximumf_apply, addf_apply, matmul_d1_apply, bias512_apply, broadcast_apply]
  unfold hidden lin vecB zero
  rw [Finset.sum_congr rfl (fun k _ => by rw [hg k, hw j k])]
  rfl

/-- A later hidden layer, the same over 512 inputs. -/
theorem layer512_apply (h : FVec Ideal S1024x512 .bf16) (s : FVec Ideal S512x512 .bf16) (b : Vec Ideal S512 .f32)
    (g : Fin 512 → EReal) (w : Fin 512 → Fin 512 → EReal) (r : Fin 1024)
    (hg : ∀ k, h (ix2 r k) = g k) (hw : ∀ j k, s (ix2 j k) = w j k) (j : Fin 512) :
    maximumf (addf (matmul dot_S1024x512_S512x512_S1024x512_1_1_0_0_n_n none h s (constant (F := Ideal) S1024x512 .f32 0x00000000#32))
        (broadcastTo S1024x512 (shapeCast S1x512 b shapeCasts_S512_S1x512) broadcasts_S1x512_S1024x512))
      (broadcast S1024x512 (Scalar.ofBits (F := Ideal) .f32 0x00000000#32)) (ix2 r j)
      = hidden g w (vecB b) j := by
  rw [maximumf_apply, addf_apply, matmul_d2_apply, bias512_apply, broadcast_apply]
  unfold hidden lin vecB zero
  rw [Finset.sum_congr rfl (fun k _ => by rw [hg k, hw j k])]
  rfl

/-- The last layer: product with the copy of the last weight block, plus the bias row; no rectifier. -/
theorem layer10_apply (h : FVec Ideal S1024x512 .bf16) (s : FVec Ideal S10x512 .bf16) (b : Vec Ideal S10 .f32)
    (g : Fin 512 → EReal) (w : Fin 10 → Fin 512 → EReal) (r : Fin 1024)
    (hg : ∀ k, h (ix2 r k) = g k) (hw : ∀ o k, s (ix2 o k) = w o k) (o : Fin 10) :
    addf (matmul dot_S1024x512_S10x512_S1024x10_1_1_0_0_n_n none h s (constant (F := Ideal) S1024x10 .f32 0x00000000#32))
        (broadcastTo S1024x10 (shapeCast S1x10 b shapeCasts_S10_S1x10) broadcasts_S1x10_S1024x10) (ix2 r o)
      = lin g w (vecB b) o := by
  rw [addf_apply, matmul_d3_apply, bias10_apply]
  unfold lin vecB
  rw [Finset.sum_congr rfl (fun k _ => by rw [hg k, hw o k])]

/-! ### The whole body -/

theorem body_apply (x0 : Vec Ideal S1024x784 .f32) (x1 : Vec Ideal S512x784 .f32) (x2 : Vec Ideal S512 .f32)
    (x3 : Vec Ideal S512x512 .f32) (x4 : Vec Ideal S512 .f32) (x5 : Vec Ideal S512x512 .f32) (x6 : Vec Ideal S512 .f32)
    (x7 : Vec Ideal S10x512 .f32) (x8 : Vec Ideal S10 .f32) (r : Fin 1024) (o : Fin 10) :
    body (F := Ideal) x0 x1 x2 x3 x4 x5 x6 x7 x8 (ix2 r o)
      = net (rowOf x0 r) (binW x1) (vecB x2) (binW x3) (vecB x4) (binW x5) (vecB x6) (matW x7) (vecB x8) o := by
  unfold body bodyFrom k0_pay1 k0_pay7 net
  refine layer10_apply _ _ x8 _ (matW x7) r (fun k => ?_) (fun o k => pay6_apply x7 o k) o
  rw [truncf_apply]
  refine layer512_apply _ _ x6 _ (binW x5) r (fun k => ?_) (fun j k => pay4_apply x5 j k) k
  rw [truncf_apply]
  refine layer512_apply _ _ x4 _ (binW x3) r (fun k => ?_) (fun j k => pay3_apply x3 j k) k
  rw [truncf_apply]
  refine layer784_apply _ _ x2 _ (binW x1) r (fun k => ?_) (fun j k => pay2_apply x1 j k) k
  rw [truncf_apply]
  rfl

end Cert.Mlp

end
-- ==== Proof.Final.lean ====
/-
  From blocks to the whole array.

  Grid point t reads rows 1024·t … 1024·t + 1023 of the input and writes the same rows of the result. Entry [r, o]
  of its result block is the network on row r of its input block, which is row 1024·t + r of the input: so what the
  point writes back is block t of the whole result. The 64 blocks tile the result (row R lies in block R / 1024), so
  after the run the result array holds the whole result.
-/
import proofs.«181393_j44057774522909_1_alg».proof.Proof.Carried
import proofs.«181393_j44057774522909_1_alg».proof.Proof.KernelBody
import proofs.«181393_j44057774522909_1_alg».proof.Proof.Gen.KernelIdeal.Value
import Idealize.ShloMosaic.Lib.Pipeline.Value

set_option maxRecDepth 16384

noncomputable section

namespace Cert.Mlp

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The whole result, as a function of the arrays the region finds. -/
abbrev result (c : Dev nD) : S65536x10.Idx → EReal :=
  G (V m c main_arg0) (V m c main_arg1) (V m c main_arg2) (V m c main_arg3) (V m c main_arg4) (V m c main_arg5)
    (V m c main_arg6) (V m c main_arg7) (V m c main_arg8)

/-- Point `t` reads block row `t` of the input and writes block row `t` of the result; both have one block column. -/
theorem idx_facts : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- Row `1024·t + r` of the input. -/
abbrev gRow (t : Fin cfg0.N) (r : Fin 1024) : Fin 65536 :=
  ⟨1024 * t.val + r.val, by have h1 := t.isLt; have h2 : cfg0.N = 64 := N_0; have h3 := r.isLt; omega⟩

/-- Row `r` of point `t`'s input block is row `1024·t + r` of the input. -/
theorem rowOf_xblk (c : Dev nD) (t : Fin cfg0.N) (r : Fin 1024) :
    rowOf (xblk m c t) r = rowOf (V m c main_arg0) (gRow t r) := by
  obtain ⟨e0, e1, -, -⟩ := idx_facts t
  funext k
  unfold rowOf xblk iblk
  rw [View.read_apply]
  show V m c main_arg0 _ = V m c main_arg0 _
  congr 1
  funext a
  apply Fin.ext
  match a with
  | ⟨0, _⟩ => show win0_0.index t (0 : Fin 2) * 1024 + 1 * r.val = 1024 * t.val + r.val; rw [e0]; omega
  | ⟨1, _⟩ => show win0_0.index t (1 : Fin 2) * 784 + 1 * k.val = k.val; rw [e1]; omega

/-- Entry `[r, o]` of point `t`'s result block sits at `[1024·t + r, o]` of the result. -/
theorem emb_out (t : Fin cfg0.N) (r : Fin 1024) (o : Fin 10) :
    ((cfg0.win 9).blk t).view.emb (ix2 r o) = ix2 (gRow t r) o := by
  obtain ⟨-, -, e0, e1⟩ := idx_facts t
  funext a
  apply Fin.ext
  match a with
  | ⟨0, _⟩ => show win0_9.index t (0 : Fin 2) * 1024 + 1 * r.val = 1024 * t.val + r.val; rw [e0]; omega
  | ⟨1, _⟩ => show win0_9.index t (1 : Fin 2) * 10 + 1 * o.val = o.val; rw [e1]; omega

/-- What point `t` writes back is block `t` of the whole result. -/
theorem flushed_eq (c : Dev nD) (t : Fin cfg0.N) :
    (dats m 0 c).flushed 9 t = ((cfg0.win 9).blk t).view.read (Elt Ideal) (result m c) := by
  rw [Cert.KernelIdeal.Value.flushed9, outsAt_eq m c t.val t.isLt]
  dsimp only
  refine funext fun (j : S1024x10.Idx) => ?_
  obtain ⟨r, o, rfl⟩ : ∃ (r : Fin 1024) (o : Fin 10), j = ix2 r o := ⟨j 0, j 1, eq_ix2 j⟩
  show body (xblk m c t) (W1 m c) (B1 m c) (W2 m c) (B2 m c) (W3 m c) (B3 m c) (W4 m c) (B4 m c) (ix2 r o)
    = result m c (((cfg0.win 9).blk t).view.emb (ix2 r o))
  rw [body_apply, emb_out, rowOf_xblk]
  rfl

/-- An entry of the result is in point `t`'s block iff each coordinate is in the block's range on its axis. -/
theorem mem_blk (t : Fin cfg0.N) (i : S65536x10.Idx) :
    i ∈ ((cfg0.win 9).blk t).view.set ↔ ∀ a : Fin 2, win0_9.index t a * S1024x10.size a ≤ (i a).val
      ∧ (i a).val < win0_9.index t a * S1024x10.size a + S1024x10.size a := by
  show i ∈ ((View.whole main_v0).slice (win0_9.rect t)).set ↔ _
  rw [View.set_slice_whole, Rect.mem_set_unit]
  exact Iff.rfl

/-- Every entry of the result is written back by some point: row `R` by point `R / 1024`. -/
theorem cover (i : S65536x10.Idx) :
    ∃ t : Fin cfg0.N, (cfg0.win 9).flush t = true ∧ i ∈ ((cfg0.win 9).blk t).view.set := by
  have hN : cfg0.N = 64 := N_0
  have hi0 : (i 0).val < 65536 := (i 0).isLt
  have hi1 : (i 1).val < 10 := (i 1).isLt
  obtain ⟨t, ht⟩ : ∃ t : Fin cfg0.N, t.val = (i 0).val / 1024 := ⟨⟨(i 0).val / 1024, by omega⟩, rfl⟩
  obtain ⟨-, -, e0, e1⟩ := idx_facts t
  refine ⟨t, flush0_9 t, ?_⟩
  rw [mem_blk]
  intro a
  match a with
  | ⟨0, _⟩ =>
    show win0_9.index t (0 : Fin 2) * 1024 ≤ (i 0).val ∧ (i 0).val < win0_9.index t (0 : Fin 2) * 1024 + 1024
    rw [e0, ht]; omega
  | ⟨1, _⟩ =>
    show win0_9.index t (1 : Fin 2) * 10 ≤ (i 1).val ∧ (i 1).val < win0_9.index t (1 : Fin 2) * 10 + 10
    rw [e1]; omega

/-- So after the run the result array holds the whole result. -/
theorem final (c : Dev nD) : (dats m 0 c).arrAt 9 cfg0.N = result m c :=
  (dats m 0 c).arrAt_eq_of_cover 9 (result m c) (fun t _ => flushed_eq m c t) cover

/-- The kernel's run: every weakly fair execution ends with the result array at the whole result and the
    arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.Mlp

end
-- ==== Proof.RefValue.lean ====
/-
  The reference's result read at an entry: entry [r, o] is the network on row r of the input, with each hidden
  weight w written w + (β(w) − w).

  The reference is read one layer at a time. A hidden layer's weight operand, read at the index the contraction
  asks for, is the transposed array w + (select (w ≥ 0) 1 (−1) − w) at [k, j], that is entry [j, k] of the
  specification's rewritten weights. A hidden layer's result at [r, j] is then the contraction over k of the
  previous activation at [r, k] against that weight, plus the bias at j, rectified at the zero word: the
  specification's rectified layer on the previous activation's row r. The last layer is the same without the
  rewriting and the rectifier. Every index equation is between two indices with the same coordinates.
-/
import proofs.«181393_j44057774522909_1_alg».proof.Proof.Gen.ReferenceIdeal.Read
import proofs.«181393_j44057774522909_1_alg».proof.Proof.Spec

noncomputable section

namespace Cert.Mlp

open Idealize.ShloMosaic Idealize.ShloMosaic.ValueIdx Cert.ReferenceIdeal Cert.ReferenceIdeal.Read

/-! ## First hidden layer -/

/-- The first layer's weight operand at the contraction's index [k, j] is the rewritten weight [j, k]. -/
theorem w1_at (x1 : FVec Ideal S512x784 .f32) (i : S65536x512.Idx) (k : Fin 784) :
    val_main_v6 (F := Ideal) x1 (ridx_main_v7 i k) = steW x1 (i 1) k := by
  rw [val_main_v6_apply, val_main_v5_apply, val_main_v4_apply, val_main_v3_apply, val_main_v2_apply,
    val_main_v1_apply, val_main_v0_apply, val_main_call0_v0_apply, val_main_call0_v1_apply,
    val_main_cst_apply, val_main_cst_0_apply, val_main_cst_1_apply]
  have e : idx_main_v6 (ridx_main_v7 i k) = ix2 (i 1) k :=
    funext fun a => by match a with | ⟨0, _⟩ => rfl | ⟨1, _⟩ => rfl
  rw [e]
  rfl

/-- The first activation at [r, j] is the rectified layer on row r of the input. -/
theorem layer1 (x0 : FVec Ideal S65536x784 .f32) (x1 : FVec Ideal S512x784 .f32) (x2 : FVec Ideal S512 .f32)
    (i : S65536x512.Idx) :
    val_main_v11 (F := Ideal) x0 x1 x2 i = hidden (rowOf x0 (i 0)) (steW x1) (vecB x2) (i 1) := by
  rw [val_main_v11_apply, val_main_v10_apply, val_main_v7_apply, val_main_v9_apply, val_main_v8_apply,
    val_main_call1_v0_apply, val_main_call1_cst_apply]
  have hs : ∑ k : Fin 784, x0 (lidx_main_v7 i k) * val_main_v6 (F := Ideal) x1 (ridx_main_v7 i k)
      = ∑ k : Fin 784, rowOf x0 (i 0) k * steW x1 (i 1) k :=
    Finset.sum_congr rfl fun k _ => by
      rw [w1_at]
      have e : lidx_main_v7 i k = ix2 (i 0) k :=
        funext fun a => by match a with | ⟨0, _⟩ => rfl | ⟨1, _⟩ => rfl
      rw [e]
      rfl
  have hb : x2 (idx_main_v8 (idx_main_v9 i)) = vecB x2 (i 1) :=
    congrArg x2 (funext fun a => by match a with | ⟨0, _⟩ => rfl)
  rw [hs, hb]
  rfl

/-! ## Second hidden layer -/

/-- The second layer's weight operand at the contraction's index [k, j] is the rewritten weight [j, k]. -/
theorem w2_at (x3 : FVec Ideal S512x512 .f32) (i : S65536x512.Idx) (k : Fin 512) :
    val_main_v18 (F := Ideal) x3 (ridx_main_v19 i k) = steW x3 (i 1) k := by
  rw [val_main_v18_apply, val_main_v17_apply, val_main_v16_apply, val_main_v15_apply, val_main_v14_apply,
    val_main_v13_apply, val_main_v12_apply, val_main_call2_v0_apply, val_main_call2_v1_apply,
    val_main_cst_2_apply, val_main_cst_3_apply, val_main_cst_4_apply]
  have e : idx_main_v18 (ridx_main_v19 i k) = ix2 (i 1) k :=
    funext fun a => by match a with | ⟨0, _⟩ => rfl | ⟨1, _⟩ => rfl
  rw [e]
  rfl

/-- The second activation at [r, j] is the rectified layer on row r of the first activation. -/
theorem layer2 (x0 : FVec Ideal S65536x784 .f32) (x1 : FVec Ideal S512x784 .f32) (x2 : FVec Ideal S512 .f32)
    (x3 : FVec Ideal S512x512 .f32) (x4 : FVec Ideal S512 .f32) (i : S65536x512.Idx) :
    val_main_v23 (F := Ideal) x0 x1 x2 x3 x4 i
      = hidden (hidden (rowOf x0 (i 0)) (steW x1) (vecB x2)) (steW x3) (vecB x4) (i 1) := by
  rw [val_main_v23_apply, val_main_v22_apply, val_main_v19_apply, val_main_v21_apply, val_main_v20_apply,
    val_main_call3_v0_apply, val_main_call3_cst_apply]
  have hs : ∑ k : Fin 512, val_main_v11 (F := Ideal) x0 x1 x2 (lidx_main_v19 i k)
        * val_main_v18 (F := Ideal) x3 (ridx_main_v19 i k)
      = ∑ k : Fin 512, hidden (rowOf x0 (i 0)) (steW x1) (vecB x2) k * steW x3 (i 1) k :=
    Finset.sum_congr rfl fun k _ => by
      rw [w2_at, layer1]
      rfl
  have hb : x4 (idx_main_v20 (idx_main_v21 i)) = vecB x4 (i 1) :=
    congrArg x4 (funext fun a => by match a with | ⟨0, _⟩ => rfl)
  rw [hs, hb]
  rfl

/-! ## Third hidden layer -/

/-- The third layer's weight operand at the contraction's index [k, j] is the rewritten weight [j, k]. -/
theorem w3_at (x5 : FVec Ideal S512x512 .f32) (i : S65536x512.Idx) (k : Fin 512) :
    val_main_v30 (F := Ideal) x5 (ridx_main_v31 i k) = steW x5 (i 1) k := by
  rw [val_main_v30_apply, val_main_v29_apply, val_main_v28_apply, val_main_v27_apply, val_main_v26_apply,
    val_main_v25_apply, val_main_v24_apply, val_main_call4_v0_apply, val_main_call4_v1_apply,
    val_main_cst_5_apply, val_main_cst_6_apply, val_main_cst_7_apply]
  have e : idx_main_v30 (ridx_main_v31 i k) = ix2 (i 1) k :=
    funext fun a => by match a with | ⟨0, _⟩ => rfl | ⟨1, _⟩ => rfl
  rw [e]
  rfl

/-- The third activation at [r, j] is the rectified layer on row r of the second activation. -/
theorem layer3 (x0 : FVec Ideal S65536x784 .f32) (x1 : FVec Ideal S512x784 .f32) (x2 : FVec Ideal S512 .f32)
    (x3 : FVec Ideal S512x512 .f32) (x4 : FVec Ideal S512 .f32) (x5 : FVec Ideal S512x512 .f32)
    (x6 : FVec Ideal S512 .f32) (i : S65536x512.Idx) :
    val_main_v35 (F := Ideal) x0 x1 x2 x3 x4 x5 x6 i
      = hidden (hidden (hidden (rowOf x0 (i 0)) (steW x1) (vecB x2)) (steW x3) (vecB x4)) (steW x5) (vecB x6)
          (i 1) := by
  rw [val_main_v35_apply, val_main_v34_apply, val_main_v31_apply, val_main_v33_apply, val_main_v32_apply,
    val_main_call5_v0_apply, val_main_call5_cst_apply]
  have hs : ∑ k : Fin 512, val_main_v23 (F := Ideal) x0 x1 x2 x3 x4 (lidx_main_v31 i k)
        * val_main_v30 (F := Ideal) x5 (ridx_main_v31 i k)
      = ∑ k : Fin 512, hidden (hidden (rowOf x0 (i 0)) (steW x1) (vecB x2)) (steW x3) (vecB x4) k
          * steW x5 (i 1) k :=
    Finset.sum_congr rfl fun k _ => by
      rw [w3_at, layer2]
      rfl
  have hb : x6 (idx_main_v32 (idx_main_v33 i)) = vecB x6 (i 1) :=
    congrArg x6 (funext fun a => by match a with | ⟨0, _⟩ => rfl)
  rw [hs, hb]
  rfl

/-! ## Last layer -/

/-- The last layer's weight operand at the contraction's index [k, o] is the weight [o, k] itself. -/
theorem w4_at (x7 : FVec Ideal S10x512 .f32) (i : S65536x10.Idx) (k : Fin 512) :
    val_main_v36 (F := Ideal) x7 (ridx_main_v37 i k) = matW x7 (i 1) k := by
  rw [val_main_v36_apply]
  have e : idx_main_v36 (ridx_main_v37 i k) = ix2 (i 1) k :=
    funext fun a => by match a with | ⟨0, _⟩ => rfl | ⟨1, _⟩ => rfl
  rw [e]
  rfl

theorem ref_eq (x0 : FVec Ideal S65536x784 .f32) (x1 : FVec Ideal S512x784 .f32) (x2 : FVec Ideal S512 .f32)
    (x3 : FVec Ideal S512x512 .f32) (x4 : FVec Ideal S512 .f32) (x5 : FVec Ideal S512x512 .f32) (x6 : FVec Ideal S512 .f32)
    (x7 : FVec Ideal S10x512 .f32) (x8 : FVec Ideal S10 .f32) :
    Cert.ReferenceIdeal.Read.val_main_v40 (F := Ideal) x0 x1 x2 x3 x4 x5 x6 x7 x8 = Gste x0 x1 x2 x3 x4 x5 x6 x7 x8 := by
  funext i
  rw [val_main_v40_apply, val_main_v37_apply, val_main_v39_apply, val_main_v38_apply]
  have hs : ∑ k : Fin 512, val_main_v35 (F := Ideal) x0 x1 x2 x3 x4 x5 x6 (lidx_main_v37 i k)
        * val_main_v36 (F := Ideal) x7 (ridx_main_v37 i k)
      = ∑ k : Fin 512,
          hidden (hidden (hidden (rowOf x0 (i 0)) (steW x1) (vecB x2)) (steW x3) (vecB x4)) (steW x5) (vecB x6) k
            * matW x7 (i 1) k :=
    Finset.sum_congr rfl fun k _ => by
      rw [w4_at, layer3]
      rfl
  have hb : x8 (idx_main_v38 (idx_main_v39 i)) = vecB x8 (i 1) :=
    congrArg x8 (funext fun a => by match a with | ⟨0, _⟩ => rfl)
  rw [hs, hb]
  rfl

end Cert.Mlp

end
-- ==== Proof.Finite.lean ====
/-
  From the precondition to the reals: if every entry of the inputs has absolute value below +∞, every entry of the
  three hidden weight arrays is a real number.

  The precondition is a conjunction of nine tests, one per input array: "for every index, |v i| < +∞", each written
  as an all-axes reduction by `and` of the entrywise comparison, the nine results joined by `and`. The conjunction being
  1 makes each conjunct 1; a reduction by `and` that is 1 had a 1 at every index; and on the extended reals
  |x| = max x (−x) < ⊤ leaves only the real numbers, since max ⊤ (−⊤) = ⊤ and max ⊥ (−⊥) = ⊤.
-/
import proofs.«181393_j44057774522909_1_alg».proof.Pre_finite_inputs
import proofs.«181393_j44057774522909_1_alg».proof.Proof.Gen.Pre_finite_inputs
import Idealize.ShloMosaic.PureOps.Ideal
import Idealize.ShloMosaic.Lib.ReduceAll

noncomputable section

namespace Cert.Mlp

open Idealize.ShloMosaic Cert.Pre_finite_inputs

namespace Finite

/-- The f32 word 0x7F800000 (sign 0, exponent all ones, fraction 0) denotes +∞. -/
theorem ofBits_inf : Ideal.ofBits .f32 0x7F800000#32 = (⊤ : EReal) := by
  simp [Ideal.ofBits, Ideal.ieee]

/-- An extended real whose absolute value max x (−x) is below ⊤ is a real: both infinities have absolute value ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |v i| < (the splat of the word of +∞) came out 1, then v i is a real. -/
theorem real_of_test {s : Shape} (hb : S_.BroadcastsInDim s (![] : Fin 0 → Fin s.rank)) (v : FVec Ideal s .f32) (i : s.Idx)
    (h : cmpf .olt (Host.absf v) (broadcastInDim s ![] hb (constant S_ .f32 0x7F800000#32)) i = 1#1) :
    ∃ r : ℝ, v i = (r : EReal) := by
  apply real_of_abs_lt_top
  -- entrywise the comparison is the truth value of max (v i) (−v i) < (the value of the word of +∞)
  have h' : BitVec.ofBool (decide (max (v i) (-(v i)) < Ideal.ofBits .f32 0x7F800000#32)) = 1#1 := h
  rw [ofBits_inf] at h'
  by_contra hn
  rw [decide_eq_false hn] at h'
  exact absurd h' (by decide)

/-- A whole array: if the reduction by `and` over all axes of the entrywise test is 1, every entry is a real. -/
theorem real_of_all {s : Shape} {axes : List (Fin s.rank)} (hb : S_.BroadcastsInDim s (![] : Fin 0 → Fin s.rank))
    (hr : s.ReducesTo axes S_) (hu : 0 < S_.numel) (v : FVec Ideal s .f32) (j : S_.Idx)
    (h : Host.reduce IntOp.andi (cmpf .olt (Host.absf v) (broadcastInDim s ![] hb (constant S_ .f32 0x7F800000#32)))
        (constantI S_ 1 1#1) hr hu j = 1#1) :
    ∀ i, ∃ r : ℝ, v i = (r : EReal) := fun i => by
  -- the rank-0 result has exactly one index, so every entry of the operand reduces into it
  haveI : Subsingleton S_.Idx := ⟨fun a b => funext fun d => d.elim0⟩
  exact real_of_test hb v i (Host.reduce_andi_all _ _ hr hu j h i)

end Finite

open Finite in
theorem weights_real [Cert.Pre_finite_inputs.Facts]
    (x0 : FVec Ideal S65536x784 .f32) (x1 : FVec Ideal S512x784 .f32) (x2 : FVec Ideal S512 .f32)
    (x3 : FVec Ideal S512x512 .f32) (x4 : FVec Ideal S512 .f32) (x5 : FVec Ideal S512x512 .f32) (x6 : FVec Ideal S512 .f32)
    (x7 : FVec Ideal S10x512 .f32) (x8 : FVec Ideal S10 .f32)
    (h : Cert.Pre_finite_inputs.fn (F := Ideal) x0 x1 x2 x3 x4 x5 x6 x7 x8 = fun _ => 1#1) :
    (∀ i, ∃ r : ℝ, x1 i = (r : EReal)) ∧ (∀ i, ∃ r : ℝ, x3 i = (r : EReal)) ∧ (∀ i, ∃ r : ℝ, x5 i = (r : EReal)) := by
  -- the predicate at its one index: the nine tests and-ed left to right
  have h0 := congrFun h (fun a => a.elim0)
  dsimp only [fn, fn_part1, fn_part2, andi] at h0
  -- a conjunction of bits is 1 exactly when each bit is 1
  simp only [IntOp.andi_eq_one] at h0
  -- the second, fourth and sixth conjuncts are the tests of the three hidden weight arrays
  obtain ⟨⟨⟨⟨⟨⟨⟨⟨-, h1⟩, -⟩, h3⟩, -⟩, h5⟩, -⟩, -⟩, -⟩ := h0
  exact ⟨real_of_all _ _ _ x1 _ h1, real_of_all _ _ _ x3 _ h3, real_of_all _ _ _ x5 _ h5⟩

end Cert.Mlp

end
-- ==== Proof.lean ====
/-
  A four-layer perceptron with sign-binarized hidden weights, computed by one tiled kernel, equals its plain
  definition over the extended reals.

  The network (proof/Proof/Spec.lean): three layers `h ↦ max (h · β(W)ᵀ + b) 0`, with β(w) the word of 1.0 where
  w ≥ 0 and of −1.0 elsewhere, then a plain layer `h ↦ h · W₄ᵀ + b₄`.

  The kernel walks the 65536 input rows in 64 blocks of 1024. At its first block it stores β(W₁), β(W₂), β(W₃) and a
  copy of W₄ in buffers it keeps, and at every block it computes the four products from those. After every block the
  kept buffers hold the copies (induction on the block: Carried.lean, over the stores' values of Pieces.lean), so
  every block's result is the network on its rows (KernelBody.lean), and the 64 result blocks tile the result
  (Final.lean).

  The reference writes each hidden weight as `w + (β(w) − w)` (RefValue.lean reads its result entry by entry). For a
  real w that is β(w): `↑r + (b − ↑r) = b` for every extended real b. For w = ±∞ it is not, and this is the one place
  the precondition is used: every weight entry has absolute value below +∞, hence is a real (Finite.lean).

  The sums, products, maxima and the bias additions are the same expressions on both sides, entry by entry, so no
  further law of the extended reals is needed; changes of float format are the identity there.
-/
import proofs.«181393_j44057774522909_1_alg».proof.Defs
import proofs.«181393_j44057774522909_1_alg».proof.Proof.Gen.Kernel
import proofs.«181393_j44057774522909_1_alg».proof.Proof.Gen.Kernel.Frame
import proofs.«181393_j44057774522909_1_alg».proof.Proof.Gen.KernelIdeal
import proofs.«181393_j44057774522909_1_alg».proof.Proof.Gen.KernelIdeal.Frame
import proofs.«181393_j44057774522909_1_alg».proof.Proof.Gen.KernelIdeal.Value
import proofs.«181393_j44057774522909_1_alg».proof.Proof.Gen.ReferenceIdeal
import proofs.«181393_j44057774522909_1_alg».proof.Proof.Gen.ReferenceIdeal.Run
import proofs.«181393_j44057774522909_1_alg».proof.Proof.Gen.ReferenceIdeal.Read
import proofs.«181393_j44057774522909_1_alg».proof.Proof.Gen.Pre_finite_inputs
import proofs.«181393_j44057774522909_1_alg».proof.Proof.Spec
import proofs.«181393_j44057774522909_1_alg».proof.Proof.Final
import proofs.«181393_j44057774522909_1_alg».proof.Proof.RefValue
import proofs.«181393_j44057774522909_1_alg».proof.Proof.Finite

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From finite arguments that agree, the kernel ends with the network's result with binarized weights, the
    reference with the same network over `w + (β(w) − w)`; the weights being real, these are one array. -/
theorem algebraic : Cert.algebraic_KernelIdeal_ReferenceIdeal := by
  intro m ρ m' ρ' hpre hagree
  refine ⟨fun c => Cert.Mlp.result m c, Cert.Mlp.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨h1, h2, h3⟩ := Cert.Mlp.weights_real _ _ _ _ _ _ _ _ _ (hpre c)
  rw [Cert.ReferenceIdeal.Read.val_main_v40_eq, Cert.Mlp.ref_eq, a0, a1, a2, a3, a4, a5, a6, a7, a8]
  exact Cert.Mlp.Gste_eq_G _ _ _ _ _ _ _ _ _ h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
